-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg4 main_v19
  let main_c_7 : IVec S_ 32 := constantI S_ 32 50000#32
  let main_v21 : IVec S800000 32 := broadcastInDim S800000 ![] bcast_S_S800000 main_c_7
  let main_v22 : IVec S800000 1 := cmpi .slt main_arg4 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S50000x128 .f32) (main_arg1 : FVec F S50000x1 .f32) (main_arg2 : FVec F S128x128 .f32) (main_arg3 : FVec F S128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S2000x128 : Shape := ⟨2, ![2000, 128]⟩
abbrev S2000x1 : Shape := ⟨2, ![2000, 1]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩

abbrev nBuf : Space → Nat
  | .hbm => 36
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x128, .f32⟩
  | .hbm, ⟨26, _⟩ => ⟨S800000x128, .i1⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S128x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  transposes_S128x128_S128x128_1_0 : S128x128.Transposes [1, 0] S128x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  gather_S50000x1_S800000x1_S800000x1_1_0_n_n_0_1_11_wf : GatherDims.WF S50000x1 S800000x1 S800000x1 [1] [0] [] [0] [] 1 ![1, 1]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two stages of the graph layer as whole-array functions over the extended reals, index by index.

  Stage one scales the feature table: entry (r, k) becomes feature (r, k) · norm r.
  Stage two takes the table of per-node sums `agg` (whatever the message passing between the stages produced), scales row r by
  norm r again, applies the linear layer and the bias, and squashes:
      out (r, o) = tanh ( Σ_k (agg (r, k) · norm r) · wt (k, o) + b o ),
  with `wt` the weight matrix already transposed to [in, out]. Both programs end in stage two; they differ in what they feed it.
-/
import Idealize.ShloMosaic.PureOps.Ideal
import Idealize.ShloMosaic.Lib.ValueIdx

noncomputable section

open Idealize.ShloMosaic
open scoped BigOperators

namespace Cert.GraphLayer

/-- The entry of a one-column array that belongs to the row of a table index. -/
abbrev rowOf {n k : Nat} (i : (⟨2, ![n, k]⟩ : Shape).Idx) : (⟨2, ![n, 1]⟩ : Shape).Idx := fun a => match a with
  | ⟨0, _⟩ => ⟨(i 0).val, (i 0).isLt⟩
  | ⟨1, _⟩ => ⟨0, Nat.one_pos⟩

/-- The entry of a vector that belongs to the column of a table index. -/
abbrev colOf {n k : Nat} (i : (⟨2, ![n, k]⟩ : Shape).Idx) : (⟨1, ![k]⟩ : Shape).Idx := fun a => match a with
  | ⟨0, _⟩ => ⟨(i 1).val, (i 1).isLt⟩

/-- Row of `i`, column `k`: the left factor's index in the linear layer's sum. -/
abbrev lhsAt {n o K : Nat} (i : (⟨2, ![n, o]⟩ : Shape).Idx) (k : Fin K) : (⟨2, ![n, K]⟩ : Shape).Idx := fun a => match a with
  | ⟨0, _⟩ => ⟨(i 0).val, (i 0).isLt⟩
  | ⟨1, _⟩ => ⟨k.val, k.isLt⟩

/-- Row `k`, column of `i`: the right factor's index in the linear layer's sum. -/
abbrev rhsAt {n o K : Nat} (i : (⟨2, ![n, o]⟩ : Shape).Idx) (k : Fin K) : (⟨2, ![K, o]⟩ : Shape).Idx := fun a => match a with
  | ⟨0, _⟩ => ⟨k.val, k.isLt⟩
  | ⟨1, _⟩ => ⟨(i 1).val, (i 1).isLt⟩

/-- Stage one: every row of a table multiplied by that row's entry of a one-column array. -/
def scaled {n k : Nat} (feat : FVec Ideal ⟨2, ![n, k]⟩ .f32) (nrm : FVec Ideal ⟨2, ![n, 1]⟩ .f32) : FVec Ideal ⟨2, ![n, k]⟩ .f32 :=
  fun i => feat i * nrm (rowOf i)

/-- Stage two on `n` rows: scale each row by its norm, multiply by the [128, 128] matrix, add the bias, take tanh. -/
def applied {n : Nat} (agg : FVec Ideal ⟨2, ![n, 128]⟩ .f32) (nrm : FVec Ideal ⟨2, ![n, 1]⟩ .f32)
    (wt : FVec Ideal ⟨2, ![128, 128]⟩ .f32) (b : FVec Ideal ⟨1, ![128]⟩ .f32) : FVec Ideal ⟨2, ![n, 128]⟩ .f32 :=
  fun i => Ideal.tanh ((∑ k : Fin 128, (agg (lhsAt i k) * nrm (rowOf (lhsAt i k))) * wt (rhsAt i k)) + b (colOf i))

end Cert.GraphLayer

end
-- ==== Proof.ScaledTable.lean ====
/-
  The first kernel region read as ONE array. Its 25 grid points each take 2000 consecutive rows of the feature table and the
  same 2000 rows of the norm column, and write back those rows with every entry multiplied by its row's norm. The blocks tile
  the table, so after the region the output array holds, at row r and column k, feature (r, k) times norm (r, 0) — whatever the
  TensorCore's buffers held when the region was entered (the entry contents are a parameter here).
-/
import proofs.«425142_j23596550324600_2_alg».proof.Proof.Gen.KernelIdeal.Frame
import Idealize.ShloMosaic.Lib.Pipeline.Value
import Idealize.ShloMosaic.Lib.ValueIdx
import proofs.«425142_j23596550324600_2_alg».proof.Proof.Spec

noncomputable section

open Idealize.ShloMosaic Idealize.ShloMosaic.TcCoe Idealize.SL.Sem
open Idealize.ShloMosaic.Pipeline (Dat)

namespace Cert.KernelIdeal.ScaledTable

open Cert.KernelIdeal Cert.KernelIdeal.Gen Idealize.ShloMosaic.ValueIdx Cert.GraphLayer

variable (V : (c : Dev nD) → (b : Ref sig .tc) → Buf (Elt Ideal) ((c : Thread nD τ).loc b))

theorem zero_off : (![0, 0] : Fin 2 → Nat) = fun _ => 0 := funext fun a => by fin_cases a <;> rfl

/-- One block's payload at an entry: the loaded feature entry times the loaded norm of its row. -/
theorem pay_apply (x0 : FVec Ideal S2000x128 .f32) (x1 : FVec Ideal S2000x1 .f32) (j : S2000x128.Idx) :
    k0_pay1 x0 x1 j = x0 j * x1 (rowOf j) := by
  have hb : broadcastTo S2000x128 x1 Facts₀.broadcasts_S2000x1_S2000x128 j = x1 (rowOf j) :=
    broadcastTo_apply x1 Facts₀.broadcasts_S2000x1_S2000x128 j (rowOf j) (fun a => match a with
      | ⟨0, _⟩ => by show (j 0).val = if (2000 : Nat) = 1 then 0 else (j 0).val; rw [if_neg (by decide)]
      | ⟨1, _⟩ => by show 0 = if (1 : Nat) = 1 then 0 else (j 1).val; rw [if_pos rfl])
  exact congrArg (fun z => x0 j * z) hb

/-- The feature table and the norm column as the region finds them, at their literal types. -/
abbrev featArr (c : Dev nD) : FVec Ideal S50000x128 .f32 := V c main_arg0
abbrev normArr (c : Dev nD) : FVec Ideal S50000x1 .f32 := V c main_arg1

/-- The three windows' block indices at grid point t, decided over the grid: all three take row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of the scaled table of the arrays the region found. -/
theorem flushed_eq (c : Dev nD) (t : Fin cfg0.N) :
    (dat0 V c).flushed 2 t = ((cfg0.win 2).blk t).view.read (Elt Ideal) (scaled (featArr V c) (normArr V c)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S2000x1) zero_off]
  obtain ⟨e0, e1, e2, e3, e4, e5⟩ := idx_facts t
  funext j
  show k0_pay1 (iblk0 V c 0 t) (iblk0 V c 1 t) j = scaled (featArr V c) (normArr V c) (((cfg0.win 2).blk t).view.emb j)
  rw [pay_apply]
  show featArr V c (((cfg0.win 0).blk t).view.emb j) * normArr V c (((cfg0.win 1).blk t).view.emb (rowOf j))
    = featArr V c (((cfg0.win 2).blk t).view.emb j) * normArr V c (rowOf (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (rowOf j) = rowOf (((cfg0.win 2).blk t).view.emb j) := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 1 + 1 * 0 = 0; omega
  rw [h0, h1]

/-- A table index lies in grid point t's block iff each coordinate lies in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row r of the table is in the block of grid point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [mem_blk]
  obtain ⟨-, -, -, -, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- The output array after the region: the scaled table of the feature table and norm column the region found. -/
theorem final (c : Dev nD) : (dat0 V c).arrAt 2 cfg0.N = scaled (featArr V c) (normArr V c) :=
  (dat0 V c).arrAt_eq_of_cover 2 (scaled (featArr V c) (normArr V c)) (fun t _ => flushed_eq V c t) cover

end Cert.KernelIdeal.ScaledTable

end
-- ==== Proof.NodeApply.lean ====
/-
  The second kernel region read as ONE array. Each of its 25 grid points takes 2000 consecutive rows of the table of per-node
  sums and of the norm column, the whole [128, 128] matrix and the whole bias, and writes back, for its rows,
      tanh ( Σ_k (agg (r, k) · norm r) · wt (k, o) + b o ).
  The narrowing of both matrix factors to bf16 is the identity on extended reals and the product into a zero accumulator is the
  plain sum, so block t of the output is block t of stage two of the arrays the region found; the blocks tile the output.
-/
import proofs.«425142_j23596550324600_2_alg».proof.Proof.Gen.KernelIdeal.Frame
import Idealize.ShloMosaic.Lib.Pipeline.Value
import Idealize.ShloMosaic.Lib.ValueIdx
import Idealize.ShloMosaic.PureOps.Ideal.Laws
import proofs.«425142_j23596550324600_2_alg».proof.Proof.Spec

noncomputable section

open Idealize.ShloMosaic Idealize.ShloMosaic.TcCoe Idealize.SL.Sem
open Idealize.ShloMosaic.Pipeline (Dat)
open scoped BigOperators

namespace Cert.KernelIdeal.NodeApply

open Cert.KernelIdeal Cert.KernelIdeal.Gen Idealize.ShloMosaic.ValueIdx Cert.GraphLayer

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-! ## The matrix product's operand indices, axis by axis -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into the zero accumulator, at an entry: the sum over the 128 shared columns / rows. -/
theorem product_apply (l : FVec Ideal S2000x128 .bf16) (r : FVec Ideal S128x128 .bf16) (i : S2000x128.Idx) :
    matmul dot_S2000x128_S128x128_S2000x128_1_0_0_1_n_n none l r (constant S2000x128 .f32 0x00000000#32) i
      = ∑ k : Fin 128, l (lhsAt i k) * r (rhsAt i k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = lhsAt i k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx i ((ValueIdx.contrEquiv1 dot_S2000x128_S128x128_S2000x128_1_0_0_1_n_n 128 rfl rfl).symm k) = rhsAt i k := funext fun a => Fin.ext (by
    match a with
    | ⟨0, _⟩ => exact (rhs_axis0 _ _).trans hk
    | ⟨1, _⟩ => exact rhs_axis1 _ _)
  rw [el, er]

/-- The norm column spread over a block's 128 columns reads, at an entry, the norm of the entry's row. -/
theorem spread_norm (x : FVec Ideal S2000x1 .f32) (j : S2000x128.Idx) :
    broadcastTo S2000x128 x Facts₀.broadcasts_S2000x1_S2000x128 j = x (rowOf j) :=
  broadcastTo_apply x Facts₀.broadcasts_S2000x1_S2000x128 j (rowOf j) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])

/-- The bias laid out as one row and spread over a block's 2000 rows reads, at an entry, the bias of the entry's column. -/
theorem spread_bias (x : FVec Ideal S128 .f32) (j : S2000x128.Idx) :
    broadcastTo S2000x128 (shapeCast S1x128 x Facts₀.shapeCasts_S128_S1x128) Facts₀.broadcasts_S1x128_S2000x128 j = x (colOf j) := by
  have h1 : broadcastTo S2000x128 (shapeCast S1x128 x Facts₀.shapeCasts_S128_S1x128) Facts₀.broadcasts_S1x128_S2000x128 j
      = shapeCast S1x128 x Facts₀.shapeCasts_S128_S1x128 (fun a => match a with | ⟨0, _⟩ => ⟨0, Nat.one_pos⟩ | ⟨1, _⟩ => ⟨(j 1).val, (j 1).isLt⟩) :=
    broadcastTo_apply _ Facts₀.broadcasts_S1x128_S2000x128 j _ (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  rw [h1]
  refine shapeCast_apply x Facts₀.shapeCasts_S128_S1x128 _ (colOf j) ?_
  rw [Shape.rowMajor_val_one, Shape.rowMajor_val_two]
  show (j 1).val = 0 * 128 + (j 1).val
  omega

/-- One block's payload at an entry: stage two of the loaded blocks. -/
theorem pay_apply (x0 : FVec Ideal S2000x128 .f32) (x2 : FVec Ideal S2000x1 .f32) (x6 : FVec Ideal S128x128 .f32) (x10 : FVec Ideal S128 .f32)
    (j : S2000x128.Idx) : k1_pay1 x0 x2 x6 x10 j = applied x0 x2 x6 x10 j := by
  unfold k1_pay1 applied
  simp only [shapeCast_self]
  show Ideal.tanh (matmul dot_S2000x128_S128x128_S2000x128_1_0_0_1_n_n none
      (truncf .bf16 (mulf x0 (broadcastTo S2000x128 x2 Facts₀.broadcasts_S2000x1_S2000x128)) Facts₀.bitsLt_bf16_f32)
      (truncf .bf16 x6 Facts₀.bitsLt_bf16_f32) (constant S2000x128 .f32 0x00000000#32) j
    + broadcastTo S2000x128 (shapeCast S1x128 x10 Facts₀.shapeCasts_S128_S1x128) Facts₀.broadcasts_S1x128_S2000x128 j) = _
  rw [product_apply, spread_bias]
  refine congrArg (fun z => Ideal.tanh (z + x10 (colOf j))) (Finset.sum_congr rfl fun k _ => ?_)
  show x0 (lhsAt j k) * broadcastTo S2000x128 x2 Facts₀.broadcasts_S2000x1_S2000x128 (lhsAt j k) * x6 (rhsAt j k) = _
  rw [spread_norm]

/-! ## From blocks to the array -/

/-- The four arrays the region reads, as it finds them, at their literal types. -/
abbrev aggArr (c : Dev nD) : FVec Ideal S50000x128 .f32 := V c main_v4
abbrev normArr (c : Dev nD) : FVec Ideal S50000x1 .f32 := V c main_arg1
abbrev wtArr (c : Dev nD) : FVec Ideal S128x128 .f32 := V c main_v5
abbrev biasArr (c : Dev nD) : FVec Ideal S128 .f32 := V c main_arg3

/-- The windows' block indices at grid point t, decided over the grid: the row-blocked windows take row block t, the matrix
    and the bias are whole at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What grid point t writes back is block t of stage two of the arrays the region found. -/
theorem flushed_eq (c : Dev nD) (t : Fin cfg1.N) :
    (dat1 V c).flushed 4 t = ((cfg1.win 4).blk t).view.read (Elt Ideal) (applied (aggArr V c) (normArr V c) (wtArr V c) (biasArr V c)) := by
  show (cfg1.win 4).cut (grid1.coords t) ((dat1 V c).after 4 t) = _
  rw [after1_4]
  unfold out1_4
  rw [View.canon_unit_zero zero_off2]
  simp only [View.ld_unit_zero (S := S2000x128) zero_off2, View.ld_unit_zero (S := S2000x1) zero_off2,
    View.ld_unit_zero (S := S128x128) zero_off2, View.ld_unit_zero (S := S128) zero_off1]
  obtain ⟨e0, e1, e2, e3, e4, e5, e6, e7, e8⟩ := idx_facts t
  funext j
  show k1_pay1 (iblk1 V c 0 t) (iblk1 V c 1 t) (iblk1 V c 2 t) (iblk1 V c 3 t) j
    = applied (aggArr V c) (normArr V c) (wtArr V c) (biasArr V c) (((cfg1.win 4).blk t).view.emb j)
  rw [pay_apply]
  show Ideal.tanh ((∑ k : Fin 128, aggArr V c (((cfg1.win 0).blk t).view.emb (lhsAt j k))
        * normArr V c (((cfg1.win 1).blk t).view.emb (rowOf (lhsAt j k))) * wtArr V c (((cfg1.win 2).blk t).view.emb (rhsAt j k)))
      + biasArr V c (((cfg1.win 3).blk t).view.emb (colOf j)))
    = Ideal.tanh ((∑ k : Fin 128, aggArr V c (lhsAt (((cfg1.win 4).blk t).view.emb j) k)
        * normArr V c (rowOf (lhsAt (((cfg1.win 4).blk t).view.emb j) k)) * wtArr V c (rhsAt (((cfg1.win 4).blk t).view.emb j) k))
      + biasArr V c (colOf (((cfg1.win 4).blk t).view.emb j)))
  have hb : ((cfg1.win 3).blk t).view.emb (colOf j) = colOf (((cfg1.win 4).blk t).view.emb j) := by
    funext a; apply Fin.ext
    match a with
    | ⟨0, _⟩ => show win1_3.index t (0 : Fin 1) * 128 + 1 * (j 1).val = win1_4.index t (1 : Fin 2) * 128 + 1 * (j 1).val; omega
  rw [hb]
  refine congrArg (fun z => Ideal.tanh (z + biasArr V c (colOf (((cfg1.win 4).blk t).view.emb j)))) (Finset.sum_congr rfl fun k _ => ?_)
  have h0 : ((cfg1.win 0).blk t).view.emb (lhsAt j k) = lhsAt (((cfg1.win 4).blk t).view.emb j) k := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  have h1 : ((cfg1.win 1).blk t).view.emb (rowOf (lhsAt j k)) = rowOf (lhsAt (((cfg1.win 4).blk t).view.emb j) k) := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  have h2 : ((cfg1.win 2).blk t).view.emb (rhsAt j k) = rhsAt (((cfg1.win 4).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  rw [h0, h1, h2]

/-- An output index lies in grid point t's block iff each coordinate lies in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v6).slice (win1_4.rect t)).set ↔ _
  rw [View.set_slice_whole, Rect.mem_set_unit]
  exact Iff.rfl

/-- Every row r of the output is in the block of grid point r / 2000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  rw [mem_blk]
  obtain ⟨-, -, -, -, -, -, -, e7, e8⟩ := idx_facts ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e7]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e8]; omega

/-- The output array after the region: stage two of the four arrays the region found. -/
theorem final (c : Dev nD) :
    (dat1 V c).arrAt 4 cfg1.N = applied (aggArr V c) (normArr V c) (wtArr V c) (biasArr V c) :=
  (dat1 V c).arrAt_eq_of_cover 4 (applied (aggArr V c) (normArr V c) (wtArr V c) (biasArr V c)) (fun t _ => flushed_eq V c t) cover

end Cert.KernelIdeal.NodeApply

end
-- ==== Proof.KernelValue.lean ====
/-
  The kernel program's result as ONE term of its six arguments.

  Between the two regions the program gathers rows of the scaled table by the source indices (wrapping a negative index once,
  and replacing a row whose index is still outside [0, 49999] by the not-a-number pattern), adds each gathered row into the row
  of a zero table that the destination index names, and transposes the weight matrix. Reading the two host stretches back
  through the run's fold, and the two regions through their closed forms, the result array ends holding stage two of
      summed (scaled features norm) src dst,  norm,  the transposed weights,  the bias.
-/
import proofs.«425142_j23596550324600_2_alg».proof.Proof.Gen.KernelIdeal.Frame
import Idealize.ShloMosaic.Lib.StableHlo.Run
import proofs.«425142_j23596550324600_2_alg».proof.Proof.ScaledTable
import proofs.«425142_j23596550324600_2_alg».proof.Proof.NodeApply

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.GraphLayer

/-! ## The message passing between the regions, as functions of arrays -/

/-- The source indices as a column of start indices, a negative one wrapped once by adding the table's height. -/
def wrapped (src : IVec S800000 32) : IVec S800000x1 32 :=
  broadcastInDim S800000x1 ![0] Facts₀.bcast_S800000_S800000x1_0
    (select (cmpi .slt src (broadcastInDim S800000 ![] Facts₀.bcast_S_S800000 (constantI S_ 32 0#32)))
      (addi src (broadcastInDim S800000 ![] Facts₀.bcast_S_S800000 (constantI S_ 32 50000#32))) src)

/-- Per edge, whether its start index lies in [0, 49999]. -/
def maskOf (col : IVec S800000x1 32) : IVec S800000 1 :=
  Host.reduce IntOp.andi
    (andi (cmpi .sge col (broadcastInDim S800000x1 ![] Facts₀.bcast_S_S800000x1 (constantI S_ 32 0#32)))
      (cmpi .sle col (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

/-- The range test of the wrapped source indices. -/
def rowMask (src : IVec S800000 32) : IVec S800000 1 := maskOf (wrapped src)

/-- The rows of a table at a column of start indices, a row whose mask bit is clear replaced by the not-a-number pattern. -/
def pickOf (tbl : FVec Ideal S50000x128 .f32) (col : IVec S800000x1 32) (mask : IVec S800000 1) : FVec Ideal S800000x128 .f32 :=
  select (broadcastInDim S800000x128 ![0] Facts₀.bcast_S800000_S800000x128_0 mask)
    (Host.gather gather_S50000x128_S800000x1_S800000x128_1_0_n_n_0_1_1128 tbl col)
    (broadcastInDim S800000x128 ![] Facts₀.bcast_S_S800000x128 (constant S_ .f32 0x7FC00000#32))

/-- The gathered rows of a table, a row whose index is out of range replaced by the not-a-number pattern. -/
def taken (tbl : FVec Ideal S50000x128 .f32) (src : IVec S800000 32) : FVec Ideal S800000x128 .f32 :=
  pickOf tbl (wrapped src) (rowMask src)

/-- Each edge's row added into the row of a zero table its destination index names. -/
def summedOf (dst : IVec S800000 32) (msg : FVec Ideal S800000x128 .f32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 dst) msg

/-! ## The two host stretches read back, over any contents they start from -/

section Stretches
variable (Wx : Valuation τ sig (Elt Ideal))

/-- Running two stretches one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons a l ih => simp only [List.cons_append, after_cons, ih]

/-! The gathering stretch in three parts: wrapping the indices, testing their range, gathering and masking. -/
abbrev wrapOps : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg4 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg4 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg4 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
abbrev maskOps : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
abbrev pickOps : List (HloOp τ sig (Elt Ideal)) :=
  [ StableHlo.TRef.binary (.of main_v0 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v1 : StableHlo.TRef sig ⟨S800000x128, .f32⟩) select ]

theorem take_ops_eq : (hostOps1 (F := Ideal)) = wrapOps ++ (maskOps ++ pickOps) := rfl

theorem wrap_result : (StableHlo.after wrapOps Wx (Proc.devRef .tc main_call0_v5) : IVec S800000x1 32)
    = wrapped (Wx (Proc.devRef .tc main_arg4)) := by
  after_results_simp
  rfl
theorem wrap_keeps_v0 : StableHlo.after wrapOps Wx (Proc.devRef .tc main_v0) = Wx (Proc.devRef .tc main_v0) := by
  after_results_simp

attribute [local irreducible] Host.reduce in
theorem mask_result : (StableHlo.after maskOps Wx (Proc.devRef .tc main_call0_v12) : IVec S800000 1)
    = maskOf (Wx (Proc.devRef .tc main_call0_v5)) := by
  after_results_simp
  rfl
theorem mask_keeps_v5 : StableHlo.after maskOps Wx (Proc.devRef .tc main_call0_v5) = Wx (Proc.devRef .tc main_call0_v5) := by
  after_results_simp
theorem mask_keeps_v0 : StableHlo.after maskOps Wx (Proc.devRef .tc main_v0) = Wx (Proc.devRef .tc main_v0) := by
  after_results_simp

attribute [local irreducible] Host.gather in
theorem pick_result : (StableHlo.after pickOps Wx (Proc.devRef .tc main_v1) : FVec Ideal S800000x128 .f32)
    = pickOf (Wx (Proc.devRef .tc main_v0)) (Wx (Proc.devRef .tc main_call0_v5)) (Wx (Proc.devRef .tc main_call0_v12)) := by
  after_results_simp
  rfl

theorem take_result : (StableHlo.after (hostOps1 (F := Ideal)) Wx (Proc.devRef .tc main_v1) : FVec Ideal S800000x128 .f32)
    = taken (Wx (Proc.devRef .tc main_v0)) (Wx (Proc.devRef .tc main_arg4)) := by
  rw [take_ops_eq, after_append, after_append, pick_result, mask_result, mask_keeps_v5, mask_keeps_v0, wrap_result, wrap_keeps_v0]
  rfl

theorem take_keeps_arg1 : StableHlo.after (hostOps1 (F := Ideal)) Wx (Proc.devRef .tc main_arg1) = Wx (Proc.devRef .tc main_arg1) := by
  after_results_simp
theorem take_keeps_arg2 : StableHlo.after (hostOps1 (F := Ideal)) Wx (Proc.devRef .tc main_arg2) = Wx (Proc.devRef .tc main_arg2) := by
  after_results_simp
theorem take_keeps_arg3 : StableHlo.after (hostOps1 (F := Ideal)) Wx (Proc.devRef .tc main_arg3) = Wx (Proc.devRef .tc main_arg3) := by
  after_results_simp
theorem take_keeps_arg5 : StableHlo.after (hostOps1 (F := Ideal)) Wx (Proc.devRef .tc main_arg5) = Wx (Proc.devRef .tc main_arg5) := by
  after_results_simp

theorem sum_result : (StableHlo.after (hostOps1_1 (F := Ideal)) Wx (Proc.devRef .tc main_v4) : FVec Ideal S50000x128 .f32)
    = summedOf (Wx (Proc.devRef .tc main_arg5)) (Wx (Proc.devRef .tc main_v1)) := by
  after_results
  rfl
theorem transpose_result : (StableHlo.after (hostOps1_1 (F := Ideal)) Wx (Proc.devRef .tc main_v5) : FVec Ideal S128x128 .f32)
    = transpose S128x128 [1, 0] (Wx (Proc.devRef .tc main_arg2)) Facts₀.transposes_S128x128_S128x128_1_0 := by
  after_results
theorem sum_keeps_arg1 : StableHlo.after (hostOps1_1 (F := Ideal)) Wx (Proc.devRef .tc main_arg1) = Wx (Proc.devRef .tc main_arg1) := by
  after_results
theorem sum_keeps_arg3 : StableHlo.after (hostOps1_1 (F := Ideal)) Wx (Proc.devRef .tc main_arg3) = Wx (Proc.devRef .tc main_arg3) := by
  after_results

end Stretches

/-! ## The run's fold, read at the arrays the second region takes -/

variable (m : (ℓ : Loc nD τ sig) → Buf (Elt Ideal) ℓ) (ρ : Dev nD → PrngReg)

/-- The six arguments at their literal types. -/
abbrev featIn (c : Dev nD) : FVec Ideal S50000x128 .f32 := m ((c.tc : Thread nD τ).loc main_arg0)
abbrev normIn (c : Dev nD) : FVec Ideal S50000x1 .f32 := m ((c.tc : Thread nD τ).loc main_arg1)
abbrev weightIn (c : Dev nD) : FVec Ideal S128x128 .f32 := m ((c.tc : Thread nD τ).loc main_arg2)
abbrev biasIn (c : Dev nD) : FVec Ideal S128 .f32 := m ((c.tc : Thread nD τ).loc main_arg3)
abbrev srcIn (c : Dev nD) : IVec S800000 32 := m ((c.tc : Thread nD τ).loc main_arg4)
abbrev dstIn (c : Dev nD) : IVec S800000 32 := m ((c.tc : Thread nD τ).loc main_arg5)

/-- After the first region the scaled table's buffer holds the scaled table of the arguments. -/
theorem first_region (c : Dev nD) :
    (W1 m ρ c (Proc.devRef .tc main_v0) : FVec Ideal S50000x128 .f32) = scaled (featIn m c) (normIn m c) :=
  (W1_arr m ρ c 2).trans (ScaledTable.final (V0 m ρ) c)

theorem first_keeps_arg1 (c : Dev nD) : (W1 m ρ c (Proc.devRef .tc main_arg1) : FVec Ideal S50000x1 .f32) = normIn m c :=
  (W1_arr m ρ c 1).trans (((dat0 (V0 m ρ) c).arrAt_in 1 rfl _).trans (A_eq0 (V0 m ρ) c 1))
theorem first_keeps_arg2 (c : Dev nD) : (W1 m ρ c (Proc.devRef .tc main_arg2) : FVec Ideal S128x128 .f32) = weightIn m c :=
  W1_of_ne m ρ c main_arg2 (by decide)
theorem first_keeps_arg3 (c : Dev nD) : (W1 m ρ c (Proc.devRef .tc main_arg3) : FVec Ideal S128 .f32) = biasIn m c :=
  W1_of_ne m ρ c main_arg3 (by decide)
theorem first_keeps_arg4 (c : Dev nD) : (W1 m ρ c (Proc.devRef .tc main_arg4) : IVec S800000 32) = srcIn m c :=
  W1_of_ne m ρ c main_arg4 (by decide)
theorem first_keeps_arg5 (c : Dev nD) : (W1 m ρ c (Proc.devRef .tc main_arg5) : IVec S800000 32) = dstIn m c :=
  W1_of_ne m ρ c main_arg5 (by decide)

/-- What the second region finds in its four input arrays. -/
theorem agg_found (c : Dev nD) : NodeApply.aggArr (V3 m ρ) c
    = summedOf (dstIn m c) (taken (scaled (featIn m c) (normIn m c)) (srcIn m c)) := by
  show StableHlo.after hostOps1_1 (StableHlo.after hostOps1 (W1 m ρ c)) (Proc.devRef .tc main_v4) = _
  rw [sum_result, take_keeps_arg5, take_result, first_region, first_keeps_arg4, first_keeps_arg5]
theorem norm_found (c : Dev nD) : NodeApply.normArr (V3 m ρ) c = normIn m c := by
  show StableHlo.after hostOps1_1 (StableHlo.after hostOps1 (W1 m ρ c)) (Proc.devRef .tc main_arg1) = _
  rw [sum_keeps_arg1, take_keeps_arg1, first_keeps_arg1]
theorem wt_found (c : Dev nD) : NodeApply.wtArr (V3 m ρ) c
    = transpose S128x128 [1, 0] (weightIn m c) Facts₀.transposes_S128x128_S128x128_1_0 := by
  show StableHlo.after hostOps1_1 (StableHlo.after hostOps1 (W1 m ρ c)) (Proc.devRef .tc main_v5) = _
  rw [transpose_result, take_keeps_arg2, first_keeps_arg2]
theorem bias_found (c : Dev nD) : NodeApply.biasArr (V3 m ρ) c = biasIn m c := by
  show StableHlo.after hostOps1_1 (StableHlo.after hostOps1 (W1 m ρ c)) (Proc.devRef .tc main_arg3) = _
  rw [sum_keeps_arg3, take_keeps_arg3, first_keeps_arg3]

/-- THE KERNEL PROGRAM'S VALUE: the result array after the run, as one term of the arguments. -/
theorem result (c : Dev nD) : (W4 m ρ c (Proc.devRef .tc main_v6) : FVec Ideal S50000x128 .f32)
    = applied (summedOf (dstIn m c) (taken (scaled (featIn m c) (normIn m c)) (srcIn m c))) (normIn m c)
        (transpose S128x128 [1, 0] (weightIn m c) Facts₀.transposes_S128x128_S128x128_1_0) (biasIn m c) := by
  refine (W4_arr m ρ c 4).trans ?_
  rw [NodeApply.final (V3 m ρ) c, agg_found, norm_found, wt_found, bias_found]

end Cert.KernelIdeal.Whole

end
-- ==== Proof.TakeRows.lean ====
/-
  Gathering rows of a table by an integer index column, read at an entry; and the word facts that say an index is in range.

  `x[idx]` along the rows of an [N, K] table with an [E, 1] column of start indices reads, at (e, k), the table at row
  `idx e` (read signed, clamped into [0, N − 1]) and column k. Hence gathering a table whose rows were scaled by a one-column
  array is gathering the table and the column separately and multiplying: both gathers clamp the same start index to the same row.
  The kernel's program additionally masks the gathered rows with "0 ≤ idx ≤ N − 1" (after wrapping a negative index once, by
  adding N); for an index already in [0, N) the wrap does nothing and the mask is all ones.
-/
import Idealize.ShloMosaic.PureOps
import Idealize.ShloMosaic.Lib.ValueIdx
import Idealize.ShloMosaic.Lib.ReduceAll
import proofs.«425142_j23596550324600_2_alg».proof.Proof.Spec

noncomputable section

open Idealize.ShloMosaic

namespace Cert.GraphLayer

/-! ## The row gather -/

/-- The dimension numbers of `x[idx]` along axis 0 of an [N, K] table, the start indices an [E, 1] column. -/
abbrev rowGather (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The table entry result entry `j` reads: the row its start index names (signed, clamped), its own column. -/
abbrev srcOf {N E K w : Nat} (hN : 0 < N) (idx : IVec ⟨2, ![E, 1]⟩ w) (j : (⟨2, ![E, K]⟩ : Shape).Idx) : (⟨2, ![N, K]⟩ : Shape).Idx :=
  fun a => match a with
  | ⟨0, _⟩ => ⟨min (idx (rowOf j)).toInt.toNat (N - 1), Nat.lt_of_le_of_lt (Nat.min_le_right _ _) (Nat.sub_lt hN Nat.one_pos)⟩
  | ⟨1, _⟩ => ⟨(j 1).val, (j 1).isLt⟩

theorem rowGather_operandIdx {N E K w : Nat} (hN : 0 < N)
    (wf : GatherDims.WF ⟨2, ![N, K]⟩ ⟨2, ![E, 1]⟩ ⟨2, ![E, K]⟩ [1] [0] [] [0] [] 1 ![1, K])
    (idx : IVec ⟨2, ![E, 1]⟩ w) (j : (⟨2, ![E, K]⟩ : Shape).Idx) :
    (rowGather N E K wf).operandIdx j idx = srcOf hN idx j := by
  funext a
  refine Fin.ext ?_
  show (rowGather N E K wf).start j idx a + (rowGather N E K wf).batchCoord j a + (rowGather N E K wf).offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E K wf).startIndexMap from List.mem_singleton.mpr rfl)]
    have hsi : (rowGather N E K wf).siIdx j ⟨List.idxOf (⟨0, h0⟩ : Fin 2) (rowGather N E K wf).startIndexMap,
        List.idxOf_lt_length_iff.2 (List.mem_singleton.mpr rfl)⟩ = rowOf j := by
      funext b; refine Fin.ext ?_
      match b with
      | ⟨0, _⟩ => rfl
      | ⟨1, _⟩ => rfl
    rw [hsi]
    rfl
  | ⟨1, h1⟩ =>
    unfold GatherDims.start
    rw [dif_neg (show ¬ (⟨1, h1⟩ : Fin 2) ∈ (rowGather N E K wf).startIndexMap from
      fun h => Nat.one_ne_zero (congrArg Fin.val (List.mem_singleton.mp h)))]
    unfold GatherDims.offCoord
    rw [dif_pos (show (⟨1, h1⟩ : Fin 2) ∈ (rowGather N E K wf).sKept from
      (GatherDims.mem_sKept _ _).mpr ⟨fun h => Nat.one_ne_zero (congrArg Fin.val (List.mem_singleton.mp h)), List.not_mem_nil⟩)]
    simp only [Nat.zero_add, Nat.add_zero]
    rfl

/-- THE ROW GATHER READ AT AN ENTRY. -/
theorem rowGather_apply {α : Type} {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (j : (⟨2, ![E, K]⟩ : Shape).Idx) :
    Host.gather (rowGather N E K wf) x idx j = x (srcOf hN idx j) := by
  unfold Host.gather
  rw [rowGather_operandIdx hN]

/-- Gathering rows of a scaled table is gathering the table and the scaling column and multiplying. -/
theorem gather_scaled {N E K w : Nat} (hN : 0 < N)
    (wfK : GatherDims.WF ⟨2, ![N, K]⟩ ⟨2, ![E, 1]⟩ ⟨2, ![E, K]⟩ [1] [0] [] [0] [] 1 ![1, K])
    (wf1 : GatherDims.WF ⟨2, ![N, 1]⟩ ⟨2, ![E, 1]⟩ ⟨2, ![E, 1]⟩ [1] [0] [] [0] [] 1 ![1, 1])
    (feat : FVec Ideal ⟨2, ![N, K]⟩ .f32) (nrm : FVec Ideal ⟨2, ![N, 1]⟩ .f32) (idx : IVec ⟨2, ![E, 1]⟩ w)
    (j : (⟨2, ![E, K]⟩ : Shape).Idx) :
    Host.gather (rowGather N E K wfK) (scaled feat nrm) idx j
      = Host.gather (rowGather N E K wfK) feat idx j * Host.gather (rowGather N E 1 wf1) nrm idx (rowOf j) := by
  rw [rowGather_apply hN, rowGather_apply hN, rowGather_apply hN]
  unfold scaled
  refine congrArg (fun z => feat (srcOf hN idx j) * nrm z) ?_
  funext a
  refine Fin.ext ?_
  match a with
  | ⟨0, _⟩ => rfl
  | ⟨1, _⟩ => rfl

/-! ## Words: an index known to be in [0, 50000) -/

theorem zero_toInt : (0#32 : BitVec 32).toInt = 0 := by decide
theorem n_toInt : (50000#32 : BitVec 32).toInt = 50000 := by decide
theorem nm1_toInt : (49999#32 : BitVec 32).toInt = 49999 := by decide

theorem ofBool_one {b : Bool} (h : BitVec.ofBool b = 1#1) : b = true := by
  cases b
  · exact absurd h (by decide)
  · rfl

/-- "idx ≥ 0" as a printed comparison bit says the signed value is not negative … -/
theorem nonneg_of_sge {s : BitVec 32} (h : IntOp.cmpi .sge s 0#32 = 1#1) : 0 ≤ s.toInt := by
  have h' : BitVec.ofBool ((0#32 : BitVec 32).sle s) = 1#1 := h
  have := ofBool_one h'
  simp only [BitVec.sle, zero_toInt, decide_eq_true_eq] at this
  exact this

/-- … and "idx < 50000" that it is below the table's height. -/
theorem lt_of_slt {s : BitVec 32} (h : IntOp.cmpi .slt s 50000#32 = 1#1) : s.toInt < 50000 := by
  have h' : BitVec.ofBool (s.slt (50000#32)) = 1#1 := h
  have := ofBool_one h'
  simp only [BitVec.slt, n_toInt, decide_eq_true_eq] at this
  exact this

/-- Wrapping a negative index once (add the height when negative) leaves a non-negative index alone. -/
theorem wrap_id {s : BitVec 32} (h0 : 0 ≤ s.toInt) :
    Scalar.select (IntOp.cmpi .slt s 0#32) (IntOp.addi s 50000#32) s = s := by
  have hc : IntOp.cmpi .slt s 0#32 = 0#1 := by
    show BitVec.ofBool (s.slt 0#32) = 0#1
    have hf : s.slt 0#32 = false := by
      simp only [BitVec.slt, zero_toInt, decide_eq_false_iff_not]; omega
    rw [hf]; rfl
  rw [hc]; exact ValueIdx.select_zero _ _

/-- The range test "0 ≤ idx ∧ idx ≤ 49999" of an index in [0, 50000) is the bit 1. -/
theorem in_range_bit {s : BitVec 32} (h0 : 0 ≤ s.toInt) (h1 : s.toInt < 50000) :
    IntOp.andi (IntOp.cmpi .sge s 0#32) (IntOp.cmpi .sle s 49999#32) = 1#1 := by
  have a : IntOp.cmpi .sge s 0#32 = 1#1 := by
    show BitVec.ofBool ((0#32 : BitVec 32).sle s) = 1#1
    have ht : (0#32 : BitVec 32).sle s = true := by
      simp only [BitVec.sle, zero_toInt, decide_eq_true_eq]; exact h0
    rw [ht]; rfl
  have b : IntOp.cmpi .sle s 49999#32 = 1#1 := by
    show BitVec.ofBool (s.sle 49999#32) = 1#1
    have ht : s.sle 49999#32 = true := by
      simp only [BitVec.sle, nm1_toInt, decide_eq_true_eq]; omega
    rw [ht]; rfl
  rw [a, b]; rfl

/-! ## A conjunction over an array of ones -/

/-- A reduce by `and` from 1 over an array whose every element is 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl]
  have key : ∀ (l : List s.Idx) (r : BitVec 1), r = 1#1 → l.foldl (fun r i => IntOp.andi r (x i)) r = 1#1 := by
    intro l
    induction l with
    | nil => intro r hr; exact hr
    | cons a l ih =>
      intro r hr
      refine ih _ ?_
      show IntOp.andi r (x a) = 1#1
      rw [hr, hx a]; rfl
  exact key _ _ hinit

end Cert.GraphLayer

end
-- ==== Proof.InRange.lean ====
/-
  What the precondition says of the source-node indices: its last conjunct is the conjunction, over all 800000 edges, of
  "0 ≤ src e" and "src e < 50000", so where the precondition holds every source index names a row of the 50000-row tables.
-/
import proofs.«425142_j23596550324600_2_alg».proof.Pre_finite_inputs
import Idealize.ShloMosaic.Lib.ReduceAll
import Idealize.ShloMosaic.Lib.ValueIdx
import proofs.«425142_j23596550324600_2_alg».proof.Proof.TakeRows

noncomputable section

open Idealize.ShloMosaic

namespace Cert.GraphLayer

open Cert.Pre_finite_inputs

instance scalarIdx_subsingleton : Subsingleton (⟨0, ![]⟩ : Shape).Idx := ⟨fun a b => funext fun d => d.elim0⟩

/-- Where the printed precondition is all ones, every source index lies in [0, 50000). -/
theorem src_in_range {F : FTy → Type} [FloatOps F] [Cert.Pre_finite_inputs.Facts]
    (a0 : FVec F S50000x128 .f32) (a1 : FVec F S50000x1 .f32) (a2 : FVec F S128x128 .f32) (a3 : FVec F S128 .f32)
    (src dst : IVec S800000 32) (h : fn (F := F) a0 a1 a2 a3 src dst = fun _ => 1#1) (e : S800000.Idx) :
    0 ≤ (src e).toInt ∧ (src e).toInt < 50000 := by
  have h0 := congrFun h ValueIdx.ix0
  dsimp only [fn, fn_part1] at h0
  have h24 := (IntOp.andi_eq_one.1 h0).2
  have hall := Host.reduce_andi_all _ _ _ _ ValueIdx.ix0 h24 e
  have hb := IntOp.andi_eq_one.1 hall
  exact ⟨nonneg_of_sge hb.1, lt_of_slt hb.2⟩

end Cert.GraphLayer

end
-- ==== Proof.RefStage.lean ====
/-
  The reference program's result, read index by index, is stage two of the graph layer applied to the reference's own table of
  per-node sums (its scatter-add of the messages), the norm column, the transposed weight matrix and the bias: the host's matrix
  product is the plain sum over the 128 shared columns / rows at the ideal values, and the host's tanh is the kernel's.
-/
import proofs.«425142_j23596550324600_2_alg».proof.Proof.Gen.ReferenceIdeal.Read
import proofs.«425142_j23596550324600_2_alg».proof.Proof.Spec

noncomputable section

open Idealize.ShloMosaic
open scoped BigOperators

namespace Cert.ReferenceIdeal.RefValue

open Cert.ReferenceIdeal Cert.ReferenceIdeal.Read Cert.GraphLayer

theorem lidx_eq (i : S50000x128.Idx) (k : Fin 128) : lidx_main_v22 i k = lhsAt i k :=
  funext fun a => Fin.ext (by match a with | ⟨0, _⟩ => rfl | ⟨1, _⟩ => rfl)
theorem ridx_eq (i : S50000x128.Idx) (k : Fin 128) : ridx_main_v22 i k = rhsAt i k :=
  funext fun a => Fin.ext (by match a with | ⟨0, _⟩ => rfl | ⟨1, _⟩ => rfl)
theorem row_eq (i : S50000x128.Idx) : idx_main_v19 i = rowOf i :=
  funext fun a => Fin.ext (by match a with | ⟨0, _⟩ => rfl | ⟨1, _⟩ => rfl)
theorem col_eq (i : S50000x128.Idx) : idx_main_v23 (idx_main_v24 i) = colOf i :=
  funext fun a => Fin.ext (by match a with | ⟨0, _⟩ => rfl)

/-- One term of the linear layer's sum: the reference scales the summed row by its norm before the product. -/
theorem term_eq (x0 : FVec Ideal S50000x128 .f32) (x1 : FVec Ideal S50000x1 .f32) (x2 : FVec Ideal S128x128 .f32)
    (x4 x5 : IVec S800000 32) (i : S50000x128.Idx) (k : Fin 128) :
    val_main_v20 (F := Ideal) x0 x1 x4 x5 (lidx_main_v22 i k) * val_main_v21 (F := Ideal) x2 (ridx_main_v22 i k)
      = (val_main_v18 (F := Ideal) x0 x1 x4 x5 (lhsAt i k) * x1 (rowOf (lhsAt i k))) * val_main_v21 (F := Ideal) x2 (rhsAt i k) := by
  rw [lidx_eq, ridx_eq, val_main_v20_apply, val_main_v19_apply, row_eq]
  rfl

/-- The reference's result array is stage two of its table of sums. -/
theorem result_eq (x0 : FVec Ideal S50000x128 .f32) (x1 : FVec Ideal S50000x1 .f32) (x2 : FVec Ideal S128x128 .f32)
    (x3 : FVec Ideal S128 .f32) (x4 x5 : IVec S800000 32) :
    val_main_v26 (F := Ideal) x0 x1 x2 x3 x4 x5
      = applied (val_main_v18 (F := Ideal) x0 x1 x4 x5) x1 (val_main_v21 (F := Ideal) x2) x3 := by
  funext i
  rw [val_main_v26_apply, val_main_v25_apply, val_main_v22_apply, val_main_v24_apply, val_main_v23_apply, col_eq,
    Ideal.hostUnary_tanh_def, Ideal.addf_def]
  rw [Finset.sum_congr rfl (fun k _ => term_eq x0 x1 x2 x4 x5 i k)]
  rfl

end Cert.ReferenceIdeal.RefValue

end
-- ==== Proof.Messages.lean ====
/-
  Where every source index lies in [0, 50000) the two programs pass the same messages, hence the same per-node sums, hence
  the same result.

  The kernel program gathers rows of the ALREADY SCALED table and masks rows whose index is out of range; the reference
  gathers a row of the feature table and the entry of the norm column with the same index and multiplies. For an in-range
  index the wrap by the table's height does nothing and the mask is all ones, and a gathered row of the scaled table is the
  gathered feature row times the gathered norm (both gathers read the row the one start index names). The scatter-add into the
  zero table, the transposition of the weights and stage two are then the same operations of the same arrays on both sides.
-/
import proofs.«425142_j23596550324600_2_alg».proof.Proof.KernelValue
import proofs.«425142_j23596550324600_2_alg».proof.Proof.RefStage
import proofs.«425142_j23596550324600_2_alg».proof.Proof.TakeRows
import Idealize.ShloMosaic.Lib.Pipeline.Value

noncomputable section

open Idealize.ShloMosaic

namespace Cert.Bridge

open Cert.GraphLayer
open Cert.KernelIdeal.Whole (wrapped maskOf rowMask pickOf taken summedOf)

/-- The edge an entry of the index column belongs to … -/
abbrev edgeOfCol (i : (⟨2, ![800000, 1]⟩ : Shape).Idx) : (⟨1, ![800000]⟩ : Shape).Idx := fun a => match a with
  | ⟨0, _⟩ => ⟨(i 0).val, (i 0).isLt⟩
/-- … and the edge an entry of the message table belongs to. -/
abbrev edgeOfMsg (j : (⟨2, ![800000, 128]⟩ : Shape).Idx) : (⟨1, ![800000]⟩ : Shape).Idx := fun a => match a with
  | ⟨0, _⟩ => ⟨(j 0).val, (j 0).isLt⟩

variable (src : IVec ⟨1, ![800000]⟩ 32) (hsrc : ∀ e, 0 ≤ (src e).toInt ∧ (src e).toInt < 50000)
include hsrc

/-- For an in-range index the wrapped start index is the index itself. -/
theorem wrapped_apply (i : (⟨2, ![800000, 1]⟩ : Shape).Idx) : wrapped src i = src (edgeOfCol i) := by
  unfold wrapped
  rw [broadcastInDim_apply _ _ _ i (edgeOfCol i) (fun a => match a with
    | ⟨0, _⟩ => by show (i 0).val = if (800000 : Nat) = 1 then 0 else (i 0).val; rw [if_neg (by decide)])]
  show Scalar.select (IntOp.cmpi .slt (src (edgeOfCol i)) 0#32) (IntOp.addi (src (edgeOfCol i)) 50000#32) (src (edgeOfCol i)) = _
  exact wrap_id (hsrc _).1

/-- So every edge passes the range test. -/
theorem rowMask_one (e : (⟨1, ![800000]⟩ : Shape).Idx) : rowMask src e = 1#1 := by
  unfold rowMask maskOf
  refine reduce_andi_of_all _ _ _ _ (fun i => ?_) rfl e
  show IntOp.andi (IntOp.cmpi .sge (wrapped src i) 0#32) (IntOp.cmpi .sle (wrapped src i) 49999#32) = 1#1
  rw [wrapped_apply src hsrc i]
  exact in_range_bit (hsrc _).1 (hsrc _).2

/-- And the masked gather is the plain gather. -/
theorem taken_eq_gather (tbl : FVec Ideal ⟨2, ![50000, 128]⟩ .f32) :
    taken tbl src = Host.gather Cert.KernelIdeal.gather_S50000x128_S800000x1_S800000x128_1_0_n_n_0_1_1128 tbl (wrapped src) := by
  funext j
  unfold taken pickOf
  rw [ValueIdx.select_apply]
  have hm : broadcastInDim Cert.KernelIdeal.S800000x128 ![0] Cert.KernelIdeal.Facts₀.bcast_S800000_S800000x128_0 (rowMask src) j = 1#1 := by
    rw [broadcastInDim_apply _ _ _ j (edgeOfMsg j) (fun a => match a with
      | ⟨0, _⟩ => by show (j 0).val = if (800000 : Nat) = 1 then 0 else (j 0).val; rw [if_neg (by decide)])]
    exact rowMask_one src hsrc _
  rw [hm, ValueIdx.select_one]

/-- THE MESSAGES AGREE: the kernel program's gathered rows of the scaled table are the reference's products. -/
theorem messages_eq (feat : FVec Ideal ⟨2, ![50000, 128]⟩ .f32) (nrm : FVec Ideal ⟨2, ![50000, 1]⟩ .f32) :
    taken (scaled feat nrm) src = Cert.ReferenceIdeal.Read.val_main_v15 (F := Ideal) feat nrm src := by
  rw [taken_eq_gather src hsrc]
  funext j
  rw [Cert.ReferenceIdeal.Read.val_main_v15_apply, Cert.ReferenceIdeal.Read.val_main_v14_apply]
  have hrow : Cert.ReferenceIdeal.Read.idx_main_v14 j = rowOf j :=
    funext fun a => Fin.ext (by match a with | ⟨0, _⟩ => rfl | ⟨1, _⟩ => rfl)
  rw [hrow]
  exact gather_scaled (N := 50000) (E := 800000) (K := 128) (by decide)
    Cert.KernelIdeal.gather_S50000x128_S800000x1_S800000x128_1_0_n_n_0_1_1128.wf
    Cert.ReferenceIdeal.gather_S50000x1_S800000x1_S800000x1_1_0_n_n_0_1_11.wf feat nrm (wrapped src) j

/-- THE RESULTS AGREE. -/
theorem results_eq (feat : FVec Ideal ⟨2, ![50000, 128]⟩ .f32) (nrm : FVec Ideal ⟨2, ![50000, 1]⟩ .f32)
    (w : FVec Ideal ⟨2, ![128, 128]⟩ .f32) (b : FVec Ideal ⟨1, ![128]⟩ .f32) (dst : IVec ⟨1, ![800000]⟩ 32) :
    applied (summedOf dst (taken (scaled feat nrm) src)) nrm
        (transpose Cert.KernelIdeal.S128x128 [1, 0] w Cert.KernelIdeal.Facts₀.transposes_S128x128_S128x128_1_0) b
      = Cert.ReferenceIdeal.Read.val_main_v26 (F := Ideal) feat nrm w b src dst := by
  rw [Cert.ReferenceIdeal.RefValue.result_eq, messages_eq src hsrc]
  rfl

end Cert.Bridge

end
-- ==== Proof.lean ====
/-
  One graph-convolution layer: messages feature[src]·norm[src] summed into their destination nodes, the sums scaled by the
  node's norm, a linear layer with bias, tanh.

  The kernel program scales the feature table by the norm column ONCE (first region), gathers rows of the scaled table,
  scatter-adds them, and applies the node stage in a second region; the reference gathers feature rows and norms separately and
  multiplies per edge. Both are the same function of the arguments where every source index names a row of the table (the
  precondition's last conjunct): a gathered row of the scaled table is the gathered row times the gathered norm, the kernel
  program's range mask is then all ones, and everything after the messages is the same operations on both sides. No law of
  the extended reals beyond that is used: the sums are the same sums in the same order of terms.

  The three frames are the generated ones (the reference's is its generated run with the result dropped); the idealization
  rewrote nothing, so `preserves` is trivial.
-/
import proofs.«425142_j23596550324600_2_alg».proof.Defs
import proofs.«425142_j23596550324600_2_alg».proof.Proof.Gen.Kernel
import proofs.«425142_j23596550324600_2_alg».proof.Proof.Gen.Kernel.Skeleton
import proofs.«425142_j23596550324600_2_alg».proof.Proof.Gen.Kernel.Launch
import proofs.«425142_j23596550324600_2_alg».proof.Proof.Gen.Kernel.Points
import proofs.«425142_j23596550324600_2_alg».proof.Proof.Gen.Kernel.Frame
import proofs.«425142_j23596550324600_2_alg».proof.Proof.Gen.KernelIdeal
import proofs.«425142_j23596550324600_2_alg».proof.Proof.Gen.KernelIdeal.Skeleton
import proofs.«425142_j23596550324600_2_alg».proof.Proof.Gen.KernelIdeal.Launch
import proofs.«425142_j23596550324600_2_alg».proof.Proof.Gen.KernelIdeal.Points
import proofs.«425142_j23596550324600_2_alg».proof.Proof.Gen.KernelIdeal.Frame
import proofs.«425142_j23596550324600_2_alg».proof.Proof.Gen.ReferenceIdeal
import proofs.«425142_j23596550324600_2_alg».proof.Proof.Gen.Pre_finite_inputs
import proofs.«425142_j23596550324600_2_alg».proof.Proof.Gen.ReferenceIdeal.Run
import proofs.«425142_j23596550324600_2_alg».proof.Proof.Gen.ReferenceIdeal.Read
import proofs.«425142_j23596550324600_2_alg».proof.Proof.KernelRun
import proofs.«425142_j23596550324600_2_alg».proof.Proof.KernelValue
import proofs.«425142_j23596550324600_2_alg».proof.Proof.InRange
import proofs.«425142_j23596550324600_2_alg».proof.Proof.Messages
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs, from memories agreeing on the arguments, end with the result array at stage two of the same sums. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.Read.val_main_v26 (F := Ideal) (Cert.KernelIdeal.Whole.featIn m c)
      (Cert.KernelIdeal.Whole.normIn m c) (Cert.KernelIdeal.Whole.weightIn m c) (Cert.KernelIdeal.Whole.biasIn m c)
      (Cert.KernelIdeal.Whole.srcIn m c) (Cert.KernelIdeal.Whole.dstIn m c), ?_, ?_⟩
  · refine (θ_run Cert.KernelIdeal.defs _ _).mono (fun r h c => ⟨(h c).1.trans ?_, (h c).2⟩)
      (Cert.KernelIdeal.Launched.run (F := Ideal) m ρ)
    rw [Cert.KernelIdeal.Whole.result m ρ c]
    exact Cert.Bridge.results_eq (Cert.KernelIdeal.Whole.srcIn m c)
      (fun e => Cert.GraphLayer.src_in_range _ _ _ _ _ _ (hpre c) e) _ _ _ _ _
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [h0, h1, h2, h3, h4, h5]
    exact Cert.ReferenceIdeal.Read.val_main_v26_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
